-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x32 : Shape := ⟨2, ![4096, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S8192x4096 .f32) (main_arg1 : IVec S4096x4096 32) (main_arg2 : FVec F S4096x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S4096x32 : Shape := ⟨2, ![4096, 32]⟩
abbrev S256x4096 : Shape := ⟨2, ![256, 4096]⟩
abbrev S512x4096 : Shape := ⟨2, ![512, 4096]⟩
abbrev S512x32 : Shape := ⟨2, ![512, 32]⟩
abbrev S256x512 : Shape := ⟨2, ![256, 512]⟩
abbrev S512x128 : Shape := ⟨2, ![512, 128]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S512x4096, .i32⟩
  | .local _ .vmem, ⟨3, _⟩ => ⟨S512x4096, .i32⟩
  | .local _ .vmem, ⟨4, _⟩ => ⟨S512x32, .f32⟩
  | .local _ .vmem, ⟨5, _⟩ => ⟨S512x32, .f32⟩
  | .local _ .vmem, ⟨6, _⟩ => ⟨S256x512, .f32⟩
  | .local _ .vmem, ⟨7, _⟩ => ⟨S256x512, .f32⟩
  | .local _ .vmem, ⟨8, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x32_S512x32_0_0 : ∀ a, (![0, 0] : Fin 2 → Nat) a + S512x32.size a ≤ S512x32.size a
  h_S512x32 : 0 < S512x32.numel
  inb_S512x4096_S512x128_0_0 : ∀ a, (![0, 0] : Fin 2 → Nat) a + S512x128.size a ≤ S512x4096.size a
  h_S512x128 : 0 < S512x128.numel
  slices_S512x32_o0_0_S512x1 : S512x32.Slices ![0, 0] S512x1
  broadcasts_S512x1_S512x128 : S512x1.Broadcasts S512x128
  bitsLt_bf16_f32 : FTy.bits .bf16 < FTy.bits .f32
  shapeCasts_S512x128_S512x128 : S512x128.ShapeCasts S512x128
  packedbf16_S512x4096_S512x128_0_0 : (Rect.unit (s := S512x4096) ![0, 0] S512x128.size inb_S512x4096_S512x128_0_0).PackedRows (EltTy.packing .bf16)
  inb_S512x4096_S512x128_0_128 : ∀ a, (![0, 128] : Fin 2 → Nat) a + S512x128.size a ≤ S512x4096.size a
  slices_S512x32_o0_1_S512x1 : S512x32.Slices ![0, 1] S512x1
  packedbf16_S512x4096_S512x128_0_128 : (Rect.unit (s := S512x4096) ![0, 128] S512x128.size inb_S512x4096_S512x128_0_128).PackedRows (EltTy.packing .bf16)
  inb_S512x4096_S512x128_0_256 : ∀ a, (![0, 256] : Fin 2 → Nat) a + S512x128.size a ≤ S512x4096.size a
  slices_S512x32_o0_2_S512x1 : S512x32.Slices ![0, 2] S512x1
  packedbf16_S512x4096_S512x128_0_256 : (Rect.unit (s := S512x4096) ![0, 256] S512x128.size inb_S512x4096_S512x128_0_256).PackedRows (EltTy.packing .bf16)
  inb_S512x4096_S512x128_0_384 : ∀ a, (![0, 384] : Fin 2 → Nat) a + S512x128.size a ≤ S512x4096.size a
  slices_S512x32_o0_3_S512x1 : S512x32.Slices ![0, 3] S512x1
  packedbf16_S512x4096_S512x128_0_384 : (Rect.unit (s := S512x4096) ![0, 384] S512x128.size inb_S512x4096_S512x128_0_384).PackedRows (EltTy.packing .bf16)
  inb_S512x4096_S512x128_0_512 : ∀ a, (![0, 512] : Fin 2 → Nat) a + S512x128.size a ≤ S512x4096.size a
  slices_S512x32_o0_4_S512x1 : S512x32.Slices ![0, 4] S512x1
  packedbf16_S512x4096_S512x128_0_512 : (Rect.unit (s := S512x4096) ![0, 512] S512x128.size inb_S512x4096_S512x128_0_512).PackedRows (EltTy.packing .bf16)
  inb_S512x4096_S512x128_0_640 : ∀ a, (![0, 640] : Fin 2 → Nat) a + S512x128.size a ≤ S512x4096.size a
  slices_S512x32_o0_5_S512x1 : S512x32.Slices ![0, 5] S512x1
  packedbf16_S512x4096_S512x128_0_640 : (Rect.unit (s := S512x4096) ![0, 640] S512x128.size inb_S512x4096_S512x128_0_640).PackedRows (EltTy.packing .bf16)
  inb_S512x4096_S512x128_0_768 : ∀ a, (![0, 768] : Fin 2 → Nat) a + S512x128.size a ≤ S512x4096.size a
  slices_S512x32_o0_6_S512x1 : S512x32.Slices ![0, 6] S512x1
  packedbf16_S512x4096_S512x128_0_768 : (Rect.unit (s := S512x4096) ![0, 768] S512x128.size inb_S512x4096_S512x128_0_768).PackedRows (EltTy.packing .bf16)
  inb_S512x4096_S512x128_0_896 : ∀ a, (![0, 896] : Fin 2 → Nat) a + S512x128.size a ≤ S512x4096.size a
  slices_S512x32_o0_7_S512x1 : S512x32.Slices ![0, 7] S512x1
  packedbf16_S512x4096_S512x128_0_896 : (Rect.unit (s := S512x4096) ![0, 896] S512x128.size inb_S512x4096_S512x128_0_896).PackedRows (EltTy.packing .bf16)
  inb_S512x4096_S512x128_0_1024 : ∀ a, (![0, 1024] : Fin 2 → Nat) a + S512x128.size a ≤ S512x4096.size a
  slices_S512x32_o0_8_S512x1 : S512x32.Slices ![0, 8] S512x1
  packedbf16_S512x4096_S512x128_0_1024 : (Rect.unit (s := S512x4096) ![0, 1024] S512x128.size inb_S512x4096_S512x128_0_1024).PackedRows (EltTy.packing .bf16)
  inb_S512x4096_S512x128_0_1152 : ∀ a, (![0, 1152] : Fin 2 → Nat) a + S512x128.size a ≤ S512x4096.size a
  slices_S512x32_o0_9_S512x1 : S512x32.Slices ![0, 9] S512x1
  packedbf16_S512x4096_S512x128_0_1152 : (Rect.unit (s := S512x4096) ![0, 1152] S512x128.size inb_S512x4096_S512x128_0_1152).PackedRows (EltTy.packing .bf16)
  inb_S512x4096_S512x128_0_1280 : ∀ a, (![0, 1280] : Fin 2 → Nat) a + S512x128.size a ≤ S512x4096.size a
  slices_S512x32_o0_10_S512x1 : S512x32.Slices ![0, 10] S512x1
  packedbf16_S512x4096_S512x128_0_1280 : (Rect.unit (s := S512x4096) ![0, 1280] S512x128.size inb_S512x4096_S512x128_0_1280).PackedRows (EltTy.packing .bf16)
  inb_S512x4096_S512x128_0_1408 : ∀ a, (![0, 1408] : Fin 2 → Nat) a + S512x128.size a ≤ S512x4096.size a
  slices_S512x32_o0_11_S512x1 : S512x32.Slices ![0, 11] S512x1
  packedbf16_S512x4096_S512x128_0_1408 : (Rect.unit (s := S512x4096) ![0, 1408] S512x128.size inb_S512x4096_S512x128_0_1408).PackedRows (EltTy.packing .bf16)
  inb_S512x4096_S512x128_0_1536 : ∀ a, (![0, 1536] : Fin 2 → Nat) a + S512x128.size a ≤ S512x4096.size a
  slices_S512x32_o0_12_S512x1 : S512x32.Slices ![0, 12] S512x1
  packedbf16_S512x4096_S512x128_0_1536 : (Rect.unit (s := S512x4096) ![0, 1536] S512x128.size inb_S512x4096_S512x128_0_1536).PackedRows (EltTy.packing .bf16)
  inb_S512x4096_S512x128_0_1664 : ∀ a, (![0, 1664] : Fin 2 → Nat) a + S512x128.size a ≤ S512x4096.size a
  slices_S512x32_o0_13_S512x1 : S512x32.Slices ![0, 13] S512x1
  packedbf16_S512x4096_S512x128_0_1664 : (Rect.unit (s := S512x4096) ![0, 1664] S512x128.size inb_S512x4096_S512x128_0_1664).PackedRows (EltTy.packing .bf16)
  inb_S512x4096_S512x128_0_1792 : ∀ a, (![0, 1792] : Fin 2 → Nat) a + S512x128.size a ≤ S512x4096.size a
  slices_S512x32_o0_14_S512x1 : S512x32.Slices ![0, 14] S512x1
  packedbf16_S512x4096_S512x128_0_1792 : (Rect.unit (s := S512x4096) ![0, 1792] S512x128.size inb_S512x4096_S512x128_0_1792).PackedRows (EltTy.packing .bf16)
  inb_S512x4096_S512x128_0_1920 : ∀ a, (![0, 1920] : Fin 2 → Nat) a + S512x128.size a ≤ S512x4096.size a
  slices_S512x32_o0_15_S512x1 : S512x32.Slices ![0, 15] S512x1
  packedbf16_S512x4096_S512x128_0_1920 : (Rect.unit (s := S512x4096) ![0, 1920] S512x128.size inb_S512x4096_S512x128_0_1920).PackedRows (EltTy.packing .bf16)
  inb_S512x4096_S512x128_0_2048 : ∀ a, (![0, 2048] : Fin 2 → Nat) a + S512x128.size a ≤ S512x4096.size a
  slices_S512x32_o0_16_S512x1 : S512x32.Slices ![0, 16] S512x1
  packedbf16_S512x4096_S512x128_0_2048 : (Rect.unit (s := S512x4096) ![0, 2048] S512x128.size inb_S512x4096_S512x128_0_2048).PackedRows (EltTy.packing .bf16)
  inb_S512x4096_S512x128_0_2176 : ∀ a, (![0, 2176] : Fin 2 → Nat) a + S512x128.size a ≤ S512x4096.size a
  slices_S512x32_o0_17_S512x1 : S512x32.Slices ![0, 17] S512x1
  packedbf16_S512x4096_S512x128_0_2176 : (Rect.unit (s := S512x4096) ![0, 2176] S512x128.size inb_S512x4096_S512x128_0_2176).PackedRows (EltTy.packing .bf16)
  inb_S512x4096_S512x128_0_2304 : ∀ a, (![0, 2304] : Fin 2 → Nat) a + S512x128.size a ≤ S512x4096.size a
  slices_S512x32_o0_18_S512x1 : S512x32.Slices ![0, 18] S512x1
  packedbf16_S512x4096_S512x128_0_2304 : (Rect.unit (s := S512x4096) ![0, 2304] S512x128.size inb_S512x4096_S512x128_0_2304).PackedRows (EltTy.packing .bf16)
  inb_S512x4096_S512x128_0_2432 : ∀ a, (![0, 2432] : Fin 2 → Nat) a + S512x128.size a ≤ S512x4096.size a
  slices_S512x32_o0_19_S512x1 : S512x32.Slices ![0, 19] S512x1
  packedbf16_S512x4096_S512x128_0_2432 : (Rect.unit (s := S512x4096) ![0, 2432] S512x128.size inb_S512x4096_S512x128_0_2432).PackedRows (EltTy.packing .bf16)
  inb_S512x4096_S512x128_0_2560 : ∀ a, (![0, 2560] : Fin 2 → Nat) a + S512x128.size a ≤ S512x4096.size a
  slices_S512x32_o0_20_S512x1 : S512x32.Slices ![0, 20] S512x1
  packedbf16_S512x4096_S512x128_0_2560 : (Rect.unit (s := S512x4096) ![0, 2560] S512x128.size inb_S512x4096_S512x128_0_2560).PackedRows (EltTy.packing .bf16)
  inb_S512x4096_S512x128_0_2688 : ∀ a, (![0, 2688] : Fin 2 → Nat) a + S512x128.size a ≤ S512x4096.size a
  slices_S512x32_o0_21_S512x1 : S512x32.Slices ![0, 21] S512x1
  packedbf16_S512x4096_S512x128_0_2688 : (Rect.unit (s := S512x4096) ![0, 2688] S512x128.size inb_S512x4096_S512x128_0_2688).PackedRows (EltTy.packing .bf16)
  inb_S512x4096_S512x128_0_2816 : ∀ a, (![0, 2816] : Fin 2 → Nat) a + S512x128.size a ≤ S512x4096.size a
  slices_S512x32_o0_22_S512x1 : S512x32.Slices ![0, 22] S512x1
  packedbf16_S512x4096_S512x128_0_2816 : (Rect.unit (s := S512x4096) ![0, 2816] S512x128.size inb_S512x4096_S512x128_0_2816).PackedRows (EltTy.packing .bf16)
  inb_S512x4096_S512x128_0_2944 : ∀ a, (![0, 2944] : Fin 2 → Nat) a + S512x128.size a ≤ S512x4096.size a
  slices_S512x32_o0_23_S512x1 : S512x32.Slices ![0, 23] S512x1
  packedbf16_S512x4096_S512x128_0_2944 : (Rect.unit (s := S512x4096) ![0, 2944] S512x128.size inb_S512x4096_S512x128_0_2944).PackedRows (EltTy.packing .bf16)
  inb_S512x4096_S512x128_0_3072 : ∀ a, (![0, 3072] : Fin 2 → Nat) a + S512x128.size a ≤ S512x4096.size a
  slices_S512x32_o0_24_S512x1 : S512x32.Slices ![0, 24] S512x1
  packedbf16_S512x4096_S512x128_0_3072 : (Rect.unit (s := S512x4096) ![0, 3072] S512x128.size inb_S512x4096_S512x128_0_3072).PackedRows (EltTy.packing .bf16)
  inb_S512x4096_S512x128_0_3200 : ∀ a, (![0, 3200] : Fin 2 → Nat) a + S512x128.size a ≤ S512x4096.size a
  slices_S512x32_o0_25_S512x1 : S512x32.Slices ![0, 25] S512x1
  packedbf16_S512x4096_S512x128_0_3200 : (Rect.unit (s := S512x4096) ![0, 3200] S512x128.size inb_S512x4096_S512x128_0_3200).PackedRows (EltTy.packing .bf16)
  inb_S512x4096_S512x128_0_3328 : ∀ a, (![0, 3328] : Fin 2 → Nat) a + S512x128.size a ≤ S512x4096.size a
  slices_S512x32_o0_26_S512x1 : S512x32.Slices ![0, 26] S512x1
  packedbf16_S512x4096_S512x128_0_3328 : (Rect.unit (s := S512x4096) ![0, 3328] S512x128.size inb_S512x4096_S512x128_0_3328).PackedRows (EltTy.packing .bf16)
  inb_S512x4096_S512x128_0_3456 : ∀ a, (![0, 3456] : Fin 2 → Nat) a + S512x128.size a ≤ S512x4096.size a
  slices_S512x32_o0_27_S512x1 : S512x32.Slices ![0, 27] S512x1
  packedbf16_S512x4096_S512x128_0_3456 : (Rect.unit (s := S512x4096) ![0, 3456] S512x128.size inb_S512x4096_S512x128_0_3456).PackedRows (EltTy.packing .bf16)
  inb_S512x4096_S512x128_0_3584 : ∀ a, (![0, 3584] : Fin 2 → Nat) a + S512x128.size a ≤ S512x4096.size a
  slices_S512x32_o0_28_S512x1 : S512x32.Slices ![0, 28] S512x1
  packedbf16_S512x4096_S512x128_0_3584 : (Rect.unit (s := S512x4096) ![0, 3584] S512x128.size inb_S512x4096_S512x128_0_3584).PackedRows (EltTy.packing .bf16)
  inb_S512x4096_S512x128_0_3712 : ∀ a, (![0, 3712] : Fin 2 → Nat) a + S512x128.size a ≤ S512x4096.size a
  slices_S512x32_o0_29_S512x1 : S512x32.Slices ![0, 29] S512x1
  packedbf16_S512x4096_S512x128_0_3712 : (Rect.unit (s := S512x4096) ![0, 3712] S512x128.size inb_S512x4096_S512x128_0_3712).PackedRows (EltTy.packing .bf16)
  inb_S512x4096_S512x128_0_3840 : ∀ a, (![0, 3840] : Fin 2 → Nat) a + S512x128.size a ≤ S512x4096.size a
  slices_S512x32_o0_30_S512x1 : S512x32.Slices ![0, 30] S512x1
  packedbf16_S512x4096_S512x128_0_3840 : (Rect.unit (s := S512x4096) ![0, 3840] S512x128.size inb_S512x4096_S512x128_0_3840).PackedRows (EltTy.packing .bf16)
  inb_S512x4096_S512x128_0_3968 : ∀ a, (![0, 3968] : Fin 2 → Nat) a + S512x128.size a ≤ S512x4096.size a
  slices_S512x32_o0_31_S512x1 : S512x32.Slices ![0, 31] S512x1
  packedbf16_S512x4096_S512x128_0_3968 : (Rect.unit (s := S512x4096) ![0, 3968] S512x128.size inb_S512x4096_S512x128_0_3968).PackedRows (EltTy.packing .bf16)
  inb_S256x4096_S256x4096_0_0 : ∀ a, (![0, 0] : Fin 2 → Nat) a + S256x4096.size a ≤ S256x4096.size a
  h_S256x4096 : 0 < S256x4096.numel
  inb_S512x4096_S512x4096_0_0 : ∀ a, (![0, 0] : Fin 2 → Nat) a + S512x4096.size a ≤ S512x4096.size a
  h_S512x4096 : 0 < S512x4096.numel
  inb_S256x512_S256x512_0_0 : ∀ a, (![0, 0] : Fin 2 → Nat) a + S256x512.size a ≤ S256x512.size a
  h_S256x512 : 0 < S256x512.numel
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .i32 = 32 ∨ (Rect.block (s := S4096x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S4096x32.size a
  hwx0_2 : ∀ i : grid0.Coords, EltTy.bits .f32 = 32 ∨ (Rect.block (s := S4096x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x4096.size a
  hwx0_3 : ∀ i : grid0.Coords, EltTy.bits .f32 = 32 ∨ (Rect.block (s := S8192x4096) S256x512.size (cc0_transform_3 i) (hinb0_3 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x32 : Shape := ⟨2, ![4096, 32]⟩
abbrev S_ : Shape := ⟨0, ![]⟩
abbrev S4096x32x128 : Shape := ⟨3, ![4096, 32, 128]⟩
abbrev S4096x32x1 : Shape := ⟨3, ![4096, 32, 1]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x32, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x32x128, .f32⟩
  | .hbm, ⟨8, _⟩ => ⟨S4096x32x1, .f32⟩
  | .hbm, ⟨9, _⟩ => ⟨S4096x32x128, .f32⟩
  | .hbm, ⟨10, _⟩ => ⟨S4096x32x128, .f32⟩
  | .hbm, ⟨11, _⟩ => ⟨S4096x4096, .f32⟩
  | .hbm, ⟨12, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Dequant.lean ====
/-
  The mathematics both programs compute, stated once over literal shapes.

  A 4-bit weight matrix is stored as integers `q[o, k]` (4096 output rows, 4096 input columns) with one scale per
  output row and per GROUP of 128 consecutive input columns, `s[o, k / 128]`. Its dequantized entry is

      w[o, k] = (float(q[o, k]) - 8) * s[o, k / 128]

  and the layer's output for token row `t` is the inner product of that row of `x` with row `o` of `w`:

      out[t, o] = sum over k < 4096 of x[t, k] * w[o, k].

  On the extended reals a format change is the identity, so neither program rounds anywhere; both group the two products
  the same way (`x * ((q - 8) * s)`), and the only thing that differs between them is the ORDER in which the 4096 terms of the
  sum are met, which a commutative, associative sum does not see. No finiteness of the inputs is used.
-/
import Idealize.ShloMosaic.PureOps.Ideal
import Idealize.ShloMosaic.Lib.ValueIdx

noncomputable section

open scoped BigOperators

namespace Cert.Dequant

open Idealize.ShloMosaic Idealize.ShloMosaic.ValueIdx

/-- The group an input column belongs to: 128 consecutive columns share one scale. -/
def grp (k : Fin 4096) : Fin 32 := ⟨k.val / 128, by have := k.isLt; omega⟩

/-- The zero point of the symmetric 4-bit quantization, `8.0`, as the extended real its f32 word encodes. The same word
    stands in both programs, so it is never evaluated. -/
abbrev zeroPoint : EReal := Ideal.ofBits .f32 0x41000000#32

/-- One dequantized weight from its integer code and its group's scale. -/
def deq1 (code : BitVec 32) (scale : EReal) : EReal := (FloatOps.sitofp (F := Ideal) .f32 code - zeroPoint) * scale

/-- The dequantized weight matrix, entry `(o, k)`, over the whole arrays. -/
def weight (q : IVec (⟨2, ![4096, 4096]⟩ : Shape) 32) (s : FVec Ideal (⟨2, ![4096, 32]⟩ : Shape) .f32) (o k : Fin 4096) : EReal :=
  deq1 (q (ix2 o k)) (s (ix2 o (grp k)))

/-- The layer's output: every token row against every dequantized weight row. -/
def out (x : FVec Ideal (⟨2, ![8192, 4096]⟩ : Shape) .f32) (q : IVec (⟨2, ![4096, 4096]⟩ : Shape) 32)
    (s : FVec Ideal (⟨2, ![4096, 32]⟩ : Shape) .f32) : FVec Ideal (⟨2, ![8192, 4096]⟩ : Shape) .f32 :=
  fun i => ∑ k : Fin 4096, x (ix2 (i 0) k) * weight q s (i 1) k

theorem out_apply (x : FVec Ideal (⟨2, ![8192, 4096]⟩ : Shape) .f32) (q : IVec (⟨2, ![4096, 4096]⟩ : Shape) 32)
    (s : FVec Ideal (⟨2, ![4096, 32]⟩ : Shape) .f32) (t : Fin 8192) (o : Fin 4096) :
    out x q s (ix2 t o) = ∑ k : Fin 4096, x (ix2 t k) * weight q s o k := rfl

end Cert.Dequant

end
-- ==== Proof.RefSide.lean ====
/-
  The reference program computes the layer's output as specified.

  Its dequantized weight matrix is built through a 3-axis view: `q - 8` reshaped [4096, 4096] → [4096, 32, 128], multiplied by
  the scales broadcast along the last axis, and reshaped back. A row-major reshape keeps the flat position, so entry
  `(o, k)` of the result is entry `(o, k / 128, k % 128)` of the 3-axis product, whose first factor is entry `(o, k)` of `q - 8`
  again and whose second is the scale `s[o, k / 128]`. The final contraction pairs row `t` of `x` with row `o` of that matrix.
-/
import proofs.«116766_j90718299226265_1_alg».proof.Proof.Gen.ReferenceIdeal.Read
import proofs.«116766_j90718299226265_1_alg».proof.Proof.Dequant

noncomputable section

open scoped BigOperators

namespace Cert.ReferenceIdeal.RefValue

open Cert.ReferenceIdeal Cert.ReferenceIdeal.Read Idealize.ShloMosaic Idealize.ShloMosaic.ValueIdx Cert.Dequant

/-- Reshaping [4096, 4096] → [4096, 32, 128] and back returns to the same entry. -/
theorem reshape_round (o k : Fin 4096) : idx_main_v3 (idx_main_v7 (ix2 o k)) = ix2 o k := by
  funext a
  apply Fin.ext
  have ho := o.isLt
  have hk := k.isLt
  match a with
  | ⟨0, _⟩ =>
    show (((o.val * 4096 + k.val) / 4096 * 32 + (o.val * 4096 + k.val) / 128 % 32) * 128 + (o.val * 4096 + k.val) % 128) / 4096 = o.val
    omega
  | ⟨1, _⟩ =>
    show (((o.val * 4096 + k.val) / 4096 * 32 + (o.val * 4096 + k.val) / 128 % 32) * 128 + (o.val * 4096 + k.val) % 128) % 4096 = k.val
    omega

/-- The scale that meets entry `(o, k)` after the two broadcasts and the reshape is the one of row `o` and of `k`'s group. -/
theorem scale_index (o k : Fin 4096) : idx_main_v4 (idx_main_v5 (idx_main_v7 (ix2 o k))) = ix2 o (grp k) := by
  funext a
  apply Fin.ext
  have ho := o.isLt
  have hk := k.isLt
  match a with
  | ⟨0, _⟩ =>
    show (o.val * 4096 + k.val) / 4096 = o.val
    omega
  | ⟨1, _⟩ =>
    show (o.val * 4096 + k.val) / 128 % 32 = k.val / 128
    omega

/-- The reference's weight matrix is the dequantized one, entry by entry. -/
theorem weight_eq (q : (⟨S4096x4096, .i32⟩ : BufTy).Contents (Elt Ideal)) (s : (⟨S4096x32, .f32⟩ : BufTy).Contents (Elt Ideal))
    (o k : Fin 4096) : val_main_v7 (F := Ideal) q s (ix2 o k) = weight q s o k := by
  rw [val_main_v7_apply, val_main_v6_apply, val_main_v3_apply, val_main_v2_apply, val_main_v0_apply, val_main_v1_apply,
    val_main_cst_apply, val_main_v5_apply, val_main_v4_apply, reshape_round, scale_index]
  rfl

/-- The reference's result is the specified output. -/
theorem result_eq (x : (⟨S8192x4096, .f32⟩ : BufTy).Contents (Elt Ideal)) (q : (⟨S4096x4096, .i32⟩ : BufTy).Contents (Elt Ideal))
    (s : (⟨S4096x32, .f32⟩ : BufTy).Contents (Elt Ideal)) : val_main_v8 (F := Ideal) x q s = out x q s := by
  funext i
  obtain ⟨t, o, rfl⟩ : ∃ (t : Fin 8192) (o : Fin 4096), i = ix2 t o := ⟨i 0, i 1, eq_ix2 i⟩
  rw [val_main_v8_apply, out_apply]
  refine Finset.sum_congr rfl fun k _ => ?_
  have el : lidx_main_v8 (ix2 t o) k = ix2 t k := funext fun a => Fin.ext (by
    match a with
    | ⟨0, _⟩ => rfl
    | ⟨1, _⟩ => rfl)
  have er : ridx_main_v8 (ix2 t o) k = ix2 o k := funext fun a => Fin.ext (by
    match a with
    | ⟨0, _⟩ => rfl
    | ⟨1, _⟩ => rfl)
  rw [el, er, weight_eq]

end Cert.ReferenceIdeal.RefValue

end
-- ==== Proof.ScratchTiles.lean ====
/-
  One 128-column tile of the dequantized weight block, as the kernel body computes it.

  At a grid point whose second coordinate is zero the body fills its scratch [512, 4096] tile by tile: for group `g` it
  loads the [512, 128] tile of integer codes at columns `128 g … 128 g + 127`, converts it, subtracts the zero point, multiplies by
  column `g` of the [512, 32] block of scales repeated along the 128 lanes, and stores the result at the same columns. Read
  at row `r` and lane `l` that is `(float(code[r, 128 g + l]) - 8) * scale[r, g]`: entry `(r, 128 g + l)` of ONE function of the
  scratch's index, `blockWeight`, whose group is the column divided by 128.
-/
import proofs.«116766_j90718299226265_1_alg».proof.Proof.Gen.KernelIdeal.Skeleton
import proofs.«116766_j90718299226265_1_alg».proof.Proof.Dequant
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.ValueIdx Cert.Dequant

/-- The dequantized [512, 4096] block of weights from a [512, 4096] block of codes and the [512, 32] block of scales of the
    same 512 output rows: entry `(r, k)` is the code there, dequantized with the scale of row `r` and of `k`'s group. -/
def blockWeight (codes : Vec Ideal S512x4096 .i32) (sc : Vec Ideal S512x32 .f32) : Vec Ideal S512x4096 .bf16 :=
  fun y => deq1 (codes y) (sc (ix2 (y 0) (grp (y 1))))

theorem blockWeight_apply (codes : Vec Ideal S512x4096 .i32) (sc : Vec Ideal S512x32 .f32) (r : Fin 512) (k : Fin 4096) :
    blockWeight codes sc (ix2 r k) = deq1 (codes (ix2 r k)) (sc (ix2 r (grp k))) := rfl

/-- Column `g` of a [512, 32] block of scales, cut out as a [512, 1] column and repeated along 128 lanes, holds at row `r` and
    any lane the scale of row `r` and group `g`. -/
theorem scaleColumn_apply (off : Fin 2 → Nat) (hs : S512x32.Slices off S512x1) (hb : S512x1.Broadcasts S512x128)
    (sc : S512x32.Idx → EReal) (g : Fin 32) (h0 : off 0 = 0) (h1 : off 1 = g.val) (r : Fin 512) (l : Fin 128) :
    broadcastTo S512x128 (extractStridedSlice S512x1 off sc hs) hb (ix2 r l) = sc (ix2 r g) := by
  rw [broadcastTo_apply (extractStridedSlice S512x1 off sc hs) hb (ix2 r l) (ix2 r (0 : Fin 1)) (fun a => by
    match a with
    | ⟨0, _⟩ => show r.val = if (512 : Nat) = 1 then 0 else r.val; rw [if_neg (by decide)]
    | ⟨1, _⟩ => show 0 = if (1 : Nat) = 1 then 0 else l.val; rw [if_pos rfl])]
  exact extractStridedSlice_apply off sc hs (ix2 r (0 : Fin 1)) (ix2 r g) (fun a => by
    match a with
    | ⟨0, _⟩ => show r.val = off 0 + r.val; omega
    | ⟨1, _⟩ => show g.val = off 1 + 0; omega)

/-- The tile of group `off 1`, computed from the codes at columns `o = 128 * off 1` onward, is the tile of `blockWeight` that the
    store's rectangle at column offset `o` names. -/
theorem tile_at (off : Fin 2 → Nat) (hs : S512x32.Slices off S512x1) (hb : S512x1.Broadcasts S512x128)
    (sc : Vec Ideal S512x32 .f32) (codes : Vec Ideal S512x4096 .i32) (o : Nat)
    (inb : ∀ a, (![0, o] : Fin 2 → Nat) a + S512x128.size a ≤ S512x4096.size a)
    (h0 : off 0 = 0) (h1 : 128 * off 1 = o) (r : Fin 512) (l : Fin 128) :
    mulf (subf (sitofp .f32 (View.ld (Val := Elt Ideal) codes (Rect.unit (s := S512x4096) ![0, o] S512x128.size inb)))
          (broadcast S512x128 (Scalar.ofBits (F := Ideal) .f32 0x41000000#32)))
        (broadcastTo S512x128 (extractStridedSlice S512x1 off sc hs) hb) (ix2 r l)
      = blockWeight codes sc ((Rect.unit (s := S512x4096) ![0, o] S512x128.size inb).emb (ix2 r l)) := by
  have hg : off 1 < 32 := by
    have h := inb 1
    have h' : o + 128 ≤ 4096 := h
    omega
  rw [mulf_apply, scaleColumn_apply off hs hb sc ⟨off 1, hg⟩ h0 rfl r l]
  unfold blockWeight deq1
  refine congrArg₂ (· * ·) rfl (congrArg sc ?_)
  funext a
  apply Fin.ext
  have hl := l.isLt
  match a with
  | ⟨0, _⟩ => show r.val = 0 + 1 * r.val; omega
  | ⟨1, _⟩ => show off 1 = (o + 1 * l.val) / 128; omega

end Cert.KernelIdeal.Tiles

end
-- ==== Proof.CasePieces.lean ====
/-
  What one run of the kernel body leaves behind, in each of its two control cases.

  Case A (the grid's second coordinate is zero: a new block of 512 output rows begins): the body rewrites its whole scratch,
  32 tiles of 128 columns that tile it, each the matching tile of `blockWeight` of the code block and the scale block it was
  handed; so the scratch ends at `blockWeight`. It then multiplies the token block by the scratch it has just written.
  Case B (any other point): the scratch is left as the point before left it, and the token block is multiplied by that.
  In both cases the output block is the contraction `k0_pay2` of the token block with the scratch's contents.
-/
import proofs.«116766_j90718299226265_1_alg».proof.Proof.Gen.KernelIdeal.Frame
import proofs.«116766_j90718299226265_1_alg».proof.Proof.ScratchTiles

set_option maxRecDepth 16384

noncomputable section

namespace Cert.KernelIdeal.Pieces

open Cert.KernelIdeal Cert.KernelIdeal.Gen Cert.KernelIdeal.Tiles
open Idealize.ShloMosaic Idealize.ShloMosaic.TcCoe Idealize.ShloMosaic.Tactic Idealize.ShloMosaic.ValueIdx
open Idealize.SL Idealize.SL.Sem

theorem zeroOffsets : (![0, 0] : Fin 2 → Nat) = fun _ => 0 := funext fun a => by fin_cases a <;> rfl

/-- A load of a whole buffer after a list of stores into it reads what those stores leave. -/
theorem readCov_whole {Val : EltTy → Type} [∀ e, Nonempty (Val e)] {sig : RefSig} {κ : Kind} {sp : Space} {S : Shape} {e : EltTy}
    (v : View sig κ sp S e) (L : List (View.Piece Val S e)) {off : Fin S.rank → Nat} (h : off = fun _ => 0)
    (inb : ∀ a, off a + S.size a ≤ S.size a) :
    v.readCov L (Rect.unit off S.size inb).toLoadRect = View.canon L := by
  subst h
  rw [View.readCov_eq_canon']
  funext j
  show View.canon L ((Rect.whole S).emb j) = View.canon L j
  rw [Rect.emb_whole_apply]

/-- CASE A, the scratch: the 32 tiles the body stores are the tiles of `blockWeight` of its code block and scale block. -/
theorem scratchA_eq (c : Dev nD) (i : grid0.Coords) (arg2 : Memref sig .tc .vmem S256x4096 .f32) (harg2 : arg2.IsWhole) (arg3 : Memref sig .tc .vmem S512x4096 .i32) (harg3 : arg3.IsWhole) (arg4 : Memref sig .tc .vmem S512x32 .f32) (harg4 : arg4.IsWhole) (arg5 : Memref sig .tc .vmem S256x512 .f32) (harg5 : arg5.IsWhole) (arg6 : Memref sig .tc .vmem S512x4096 .bf16) (harg6 : arg6.IsWhole) (hc0 : cond0_0 i)
    (x0 : Vec Ideal S256x4096 .f32) (x1 : Vec Ideal S512x4096 .i32) (x2 : Vec Ideal S512x32 .f32) :
    sout0_A_0 c i arg2 harg2 arg3 harg3 arg4 harg4 arg5 harg5 arg6 harg6 hc0 x0 x1 x2 = blockWeight x1 x2 := by
  unfold sout0_A_0
  rw [View.read_writes_eq_canon _ _ _ (scover0_A_0 c i arg2 harg2 arg3 harg3 arg4 harg4 arg5 harg5 arg6 harg6 hc0 x0 x1 x2)]
  funext y
  refine View.canon_apply_of_pieces (blockWeight x1 x2) _ ?_ y (scover0_A_0 c i arg2 harg2 arg3 harg3 arg4 harg4 arg5 harg5 arg6 harg6 hc0 x0 x1 x2 y)
  unfold kernelRun0_A
  dsimp only
  sl_unfold_words
  simp only [View.readAt_eq_ld, harg3.read_unread, harg4.read_unread, View.ld_unit_zero (S := S512x32) zeroOffsets]
  intro p hp
  simp only [List.mem_cons, List.not_mem_nil, or_false] at hp
  rcases hp with rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl | rfl
  all_goals
    intro x
    obtain ⟨r, l, rfl⟩ : ∃ (r : Fin 512) (l : Fin 128), x = ix2 r l := ⟨x 0, x 1, eq_ix2 x⟩
    dsimp only
    simp only [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, shapeCast_self]
    rw [truncf_apply]
    refine tile_at _ _ _ x2 x1 _ _ ?_ ?_ r l
    · rfl
    · rfl

/-- CASE A, the output block: the token block against the scratch the same run has just filled. -/
theorem outA_eq (c : Dev nD) (i : grid0.Coords) (arg2 : Memref sig .tc .vmem S256x4096 .f32) (harg2 : arg2.IsWhole) (arg3 : Memref sig .tc .vmem S512x4096 .i32) (harg3 : arg3.IsWhole) (arg4 : Memref sig .tc .vmem S512x32 .f32) (harg4 : arg4.IsWhole) (arg5 : Memref sig .tc .vmem S256x512 .f32) (harg5 : arg5.IsWhole) (arg6 : Memref sig .tc .vmem S512x4096 .bf16) (harg6 : arg6.IsWhole) (hc0 : cond0_0 i)
    (x0 : Vec Ideal S256x4096 .f32) (x1 : Vec Ideal S512x4096 .i32) (x2 : Vec Ideal S512x32 .f32) :
    out0_A_3 c i arg2 harg2 arg3 harg3 arg4 harg4 arg5 harg5 arg6 harg6 hc0 x0 x1 x2 = k0_pay2 x0 (sout0_A_0 c i arg2 harg2 arg3 harg3 arg4 harg4 arg5 harg5 arg6 harg6 hc0 x0 x1 x2) := by
  unfold out0_A_3 sout0_A_0
  rw [View.read_writes_eq_canon _ _ _ (cover0_A_3 c i arg2 harg2 arg3 harg3 arg4 harg4 arg5 harg5 arg6 harg6 hc0 x0 x1 x2),
    View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero zeroOffsets]
  simp only [View.readAt_eq_ld, harg2.read_unread, View.ld_unit_zero (S := S256x4096) zeroOffsets,
    readCov_whole (S := S512x4096) _ _ zeroOffsets]

/-- CASE B, the output block: the token block against the scratch as the point before left it. -/
theorem outB_eq (c : Dev nD) (i : grid0.Coords) (arg2 : Memref sig .tc .vmem S256x4096 .f32) (harg2 : arg2.IsWhole) (arg3 : Memref sig .tc .vmem S512x4096 .i32) (harg3 : arg3.IsWhole) (arg4 : Memref sig .tc .vmem S512x32 .f32) (harg4 : arg4.IsWhole) (arg5 : Memref sig .tc .vmem S256x512 .f32) (harg5 : arg5.IsWhole) (arg6 : Memref sig .tc .vmem S512x4096 .bf16) (harg6 : arg6.IsWhole) (hc0 : ¬cond0_0 i)
    (x0 : Vec Ideal S256x4096 .f32) (x1 : Vec Ideal S512x4096 .i32) (x2 : Vec Ideal S512x32 .f32) (xs0 : Vec Ideal S512x4096 .bf16) :
    out0_B_3 c i arg2 harg2 arg3 harg3 arg4 harg4 arg5 harg5 arg6 harg6 hc0 x0 x1 x2 xs0 = k0_pay2 x0 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  rw [View.canon_unit_zero zeroOffsets]
  simp only [View.readAt_eq_ld, harg2.read_unread, harg6.read_unread, View.ld_unit_zero (S := S256x4096) zeroOffsets,
    View.ld_unit_zero (S := S512x4096) zeroOffsets]

end Cert.KernelIdeal.Pieces

end
-- ==== Proof.Contraction.lean ====
/-
  The body's matrix product, read at one entry.

  The body contracts the [256, 4096] token block with the [512, 4096] scratch along their SECOND axes into a zero
  accumulator. At the ideal values there is no rounding and no chunk order: entry `(a, b)` of the [256, 512] result is the sum
  over `k < 4096` of `x[a, k] * w[b, k]`, the narrowing of the token block to bf16 being the identity.
-/
import proofs.«116766_j90718299226265_1_alg».proof.Proof.Gen.KernelIdeal.Skeleton
import Idealize.ShloMosaic.Lib.ValueIdx
import Idealize.ShloMosaic.PureOps.Ideal.Laws

noncomputable section

open scoped BigOperators

namespace Cert.KernelIdeal.Contraction

open Cert.KernelIdeal Cert.KernelIdeal.Gen Idealize.ShloMosaic Idealize.ShloMosaic.ValueIdx

/-- The left operand is read at the result's row … -/
theorem lhs_row (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
/-- … and at the contraction index; -/
theorem lhs_contr (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
/-- the right operand at the result's COLUMN, which is its own row, … -/
theorem rhs_row (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
/-- … and at the contraction index. -/
theorem rhs_contr (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

/-- Entry `(a, b)` of the body's product is the inner product of row `a` of the token block with row `b` of the scratch. -/
theorem product_apply (x : Vec Ideal S256x4096 .f32) (w : Vec Ideal S512x4096 .bf16) (a : Fin 256) (b : Fin 512) :
    k0_pay2 x w (ix2 a b) = ∑ k : Fin 4096, x (ix2 a k) * w (ix2 b k) := by
  unfold k0_pay2
  simp only [matmul]
  rw [Ideal.matmul_constant_zero_apply, ← Equiv.sum_comp (contrEquiv1 dot_S256x4096_S512x4096_S256x512_1_1_0_0_n_n 4096 rfl rfl).symm]
  refine Finset.sum_congr rfl fun k _ => ?_
  have hk := contrEquiv1_symm_val dot_S256x4096_S512x4096_S256x512_1_1_0_0_n_n 4096 rfl rfl k
  have el : dot_S256x4096_S512x4096_S256x512_1_1_0_0_n_n.lhsIdx (ix2 a b) ((contrEquiv1 dot_S256x4096_S512x4096_S256x512_1_1_0_0_n_n 4096 rfl rfl).symm k) = ix2 a k := funext fun d => Fin.ext (by
    match d with
    | ⟨0, _⟩ => exact lhs_row _ _
    | ⟨1, _⟩ => exact (lhs_contr _ _).trans hk)
  have er : dot_S256x4096_S512x4096_S256x512_1_1_0_0_n_n.rhsIdx (ix2 a b) ((contrEquiv1 dot_S256x4096_S512x4096_S256x512_1_1_0_0_n_n 4096 rfl rfl).symm k) = ix2 b k := funext fun d => Fin.ext (by
    match d with
    | ⟨0, _⟩ => exact rhs_row _ _
    | ⟨1, _⟩ => exact (rhs_contr _ _).trans hk)
  rw [el, er]
  rfl

end Cert.KernelIdeal.Contraction

end
-- ==== Proof.Blocks.lean ====
/-
  The blocks the pipeline hands the body, read off the whole arrays.

  The grid is 8 × 32, the second coordinate running fastest: point `t` has first coordinate `t / 32` (which block of 512 output
  rows) and second coordinate `t % 32` (which block of 256 token rows). So at point `t`
    · the token block is rows `256 (t % 32) …` of `x`, all 4096 columns;
    · the code block is rows `512 (t / 32) …` of `q`, all 4096 columns, and the scale block the same rows of `s`;
    · the output block is rows `256 (t % 32) …` and columns `512 (t / 32) …` of the result.
  Hence `blockWeight` of the code and scale blocks at point `t` is the row block `t / 32` of the dequantized weight matrix.
-/
import proofs.«116766_j90718299226265_1_alg».proof.Proof.Gen.KernelIdeal.Frame
import proofs.«116766_j90718299226265_1_alg».proof.Proof.ScratchTiles

noncomputable section

namespace Cert.KernelIdeal.Blocks

open Cert.KernelIdeal Cert.KernelIdeal.Gen Cert.KernelIdeal.Tiles Cert.Dequant
open Idealize.ShloMosaic Idealize.ShloMosaic.TcCoe Idealize.ShloMosaic.ValueIdx Idealize.SL.Sem

variable (m : (ℓ : Loc nD τ sig) → Buf (Elt Ideal) ℓ)

/-- The three argument arrays as the region finds them, at their literal types. -/
abbrev tokens (c : Dev nD) : Vec Ideal S8192x4096 .f32 := V m c main_arg0
abbrev codes (c : Dev nD) : Vec Ideal S4096x4096 .i32 := V m c main_arg1
abbrev scales (c : Dev nD) : Vec Ideal S4096x32 .f32 := V m c main_arg2

/-- The three input blocks at point `t`, at their literal types. -/
abbrev tokenBlk (c : Dev nD) (t : Fin cfg0.N) : Vec Ideal S256x4096 .f32 := iblk m c 0 t
abbrev codeBlk (c : Dev nD) (t : Fin cfg0.N) : Vec Ideal S512x4096 .i32 := iblk m c 1 t
abbrev scaleBlk (c : Dev nD) (t : Fin cfg0.N) : Vec Ideal S512x32 .f32 := iblk m c 2 t

/-- The printed index maps, decided once over the 256 points. -/
theorem index_facts : ∀ t : Fin cfg0.N,
    win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val / 32 ∧ win0_2.index t (1 : Fin 2) = 0
    ∧ win0_3.index t (0 : Fin 2) = t.val % 32 ∧ win0_3.index t (1 : Fin 2) = t.val / 32 :=
  (by decide +kernel : ∀ t : Fin grid0.N, _)

theorem point_lt (t : Fin cfg0.N) : t.val < 256 := lt_of_lt_of_eq t.isLt (show cfg0.N = 256 from N_0)

/-- Row `a` of the token block at point `t` is row `256 (t % 32) + a` of `x`. -/
theorem tokenBlk_apply (c : Dev nD) (t : Fin cfg0.N) (a : Fin 256) (k : Fin 4096) :
    tokenBlk m c t (ix2 a k) = tokens m c (ix2 ⟨256 * (t.val % 32) + a.val, by have := a.isLt; omega⟩ k) := by
  obtain ⟨e0, e1, -⟩ := index_facts t
  unfold tokenBlk iblk
  rw [View.read_apply]
  show V m c main_arg0 _ = V m c main_arg0 _
  congr 1
  funext d
  apply Fin.ext
  match d with
  | ⟨0, _⟩ => show win0_0.index t (0 : Fin 2) * 256 + 1 * a.val = 256 * (t.val % 32) + a.val; rw [e0]; omega
  | ⟨1, _⟩ => show win0_0.index t (1 : Fin 2) * 4096 + 1 * k.val = k.val; rw [e1]; omega

/-- Row `r` of the code block at point `t` is row `512 (t / 32) + r` of `q`. -/
theorem codeBlk_apply (c : Dev nD) (t : Fin cfg0.N) (r : Fin 512) (k : Fin 4096) :
    codeBlk m c t (ix2 r k) = codes m c (ix2 ⟨512 * (t.val / 32) + r.val, by have := r.isLt; have := point_lt t; omega⟩ k) := by
  obtain ⟨-, -, e0, e1, -⟩ := index_facts t
  unfold codeBlk iblk
  rw [View.read_apply]
  show V m c main_arg1 _ = V m c main_arg1 _
  congr 1
  funext d
  apply Fin.ext
  match d with
  | ⟨0, _⟩ => show win0_1.index t (0 : Fin 2) * 512 + 1 * r.val = 512 * (t.val / 32) + r.val; rw [e0]; omega
  | ⟨1, _⟩ => show win0_1.index t (1 : Fin 2) * 4096 + 1 * k.val = k.val; rw [e1]; omega

/-- Row `r` of the scale block at point `t` is row `512 (t / 32) + r` of `s`. -/
theorem scaleBlk_apply (c : Dev nD) (t : Fin cfg0.N) (r : Fin 512) (g : Fin 32) :
    scaleBlk m c t (ix2 r g) = scales m c (ix2 ⟨512 * (t.val / 32) + r.val, by have := r.isLt; have := point_lt t; omega⟩ g) := by
  obtain ⟨-, -, -, -, e0, e1, -⟩ := index_facts t
  unfold scaleBlk iblk
  rw [View.read_apply]
  show V m c main_arg2 _ = V m c main_arg2 _
  congr 1
  funext d
  apply Fin.ext
  match d with
  | ⟨0, _⟩ => show win0_2.index t (0 : Fin 2) * 512 + 1 * r.val = 512 * (t.val / 32) + r.val; rw [e0]; omega
  | ⟨1, _⟩ => show win0_2.index t (1 : Fin 2) * 32 + 1 * g.val = g.val; rw [e1]; omega

/-- Row block `j` (512 rows) of the dequantized weight matrix. -/
def weightRows (q : Vec Ideal S4096x4096 .i32) (s : Vec Ideal S4096x32 .f32) (j : Fin 8) : Vec Ideal S512x4096 .bf16 :=
  fun y => weight q s ⟨512 * j.val + (y 0).val, by have := (y 0).isLt; have h : (y 0).val < 512 := this; have := j.isLt; omega⟩ (y 1)

theorem weightRows_apply (q : Vec Ideal S4096x4096 .i32) (s : Vec Ideal S4096x32 .f32) (j : Fin 8) (r : Fin 512) (k : Fin 4096) :
    weightRows q s j (ix2 r k) = weight q s ⟨512 * j.val + r.val, by have := r.isLt; have := j.isLt; omega⟩ k := rfl

/-- The block of 512 output rows a point works on. -/
def rowBlockOf (t : Fin cfg0.N) : Fin 8 := ⟨t.val / 32, by have := point_lt t; omega⟩

/-- The dequantized block the body computes from the code block and the scale block of point `t` is row block `t / 32` of the
    dequantized weight matrix. -/
theorem blockWeight_blk (c : Dev nD) (t : Fin cfg0.N) :
    blockWeight (codeBlk m c t) (scaleBlk m c t) = weightRows (codes m c) (scales m c) (rowBlockOf t) := by
  funext y
  obtain ⟨r, k, rfl⟩ : ∃ (r : Fin 512) (k : Fin 4096), y = ix2 r k := ⟨y 0, y 1, eq_ix2 y⟩
  rw [blockWeight_apply, codeBlk_apply, scaleBlk_apply, weightRows_apply]
  rfl

end Cert.KernelIdeal.Blocks

end
-- ==== Proof.KernelValue.lean ====
/-
  The kernel's result array, as one function of its argument arrays.

  The scratch is refilled only when a new block of 512 output rows begins and is carried unchanged through the 31 points that
  follow, so after ANY point `n` it holds row block `n / 32` of the dequantized weight matrix: by induction on the point, a
  refilling point computing it afresh from its own blocks and any other point inheriting it from the point before, which lies in
  the same row block. Every point therefore writes back the product of its token block with that row block, which is the
  matching [256, 512] block of the specified output; the 256 blocks tile the [8192, 4096] result.
-/
import proofs.«116766_j90718299226265_1_alg».proof.Proof.Gen.KernelIdeal.Value
import proofs.«116766_j90718299226265_1_alg».proof.Proof.CasePieces
import proofs.«116766_j90718299226265_1_alg».proof.Proof.Contraction
import proofs.«116766_j90718299226265_1_alg».proof.Proof.Blocks

noncomputable section

open scoped BigOperators

namespace Cert.KernelIdeal.Whole

open Cert.KernelIdeal Cert.KernelIdeal.Gen Cert.KernelIdeal.Tiles Cert.KernelIdeal.Pieces Cert.KernelIdeal.Blocks
open Cert.KernelIdeal.Contraction Cert.Dequant
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- THE CARRIED SCRATCH after point `n`: row block `n / 32` of the dequantized weights. -/
theorem scratch_after (c : Dev nD) : ∀ (n : ℕ) (hn : n < cfg0.N),
    (outsAt0 m c n hn).2 = weightRows (codes m c) (scales m c) (rowBlockOf ⟨n, hn⟩) := by
  intro n
  induction n using Nat.strong_induction_on with
  | _ n ih =>
    intro hn
    have hN : n < 256 := point_lt ⟨n, hn⟩
    by_cases h0 : n % 32 = 0
    · rw [outsAt0_A m c ⟨n, hn⟩ h0]
      dsimp only
      exact (scratchA_eq c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) ((hcond0_0 ⟨n, hn⟩).mpr h0) (tokenBlk m c ⟨n, hn⟩) (codeBlk m c ⟨n, hn⟩) (scaleBlk m c ⟨n, hn⟩)).trans
        (blockWeight_blk m c ⟨n, hn⟩)
    · rw [outsAt0_B m c ⟨n, hn⟩ h0]
      dsimp only
      unfold sout0_B_0
      rw [ih (n - 1) (by omega)]
      exact congrArg (weightRows (codes m c) (scales m c)) (Fin.ext (by show (n - 1) / 32 = n / 32; omega))

/-- THE OUTPUT BLOCK after point `t`: the token block against row block `t / 32` of the dequantized weights. -/
theorem out_after (c : Dev nD) (t : Fin cfg0.N) :
    (outsAt0 m c t.val t.isLt).1 = k0_pay2 (tokenBlk m c t) (weightRows (codes m c) (scales m c) (rowBlockOf t)) := by
  have hN : t.val < 256 := point_lt t
  by_cases h0 : t.val % 32 = 0
  · rw [outsAt0_A m c t h0]
    dsimp only
    refine (outA_eq c (grid0.coords t) (ms0_0 t) (hs0_0 t) (ms0_1 t) (hs0_1 t) (ms0_2 t) (hs0_2 t) (ms0_3 t) (hs0_3 t) scM0_0 (Memref.isWhole_whole _) ((hcond0_0 t).mpr h0) (tokenBlk m c t) (codeBlk m c t) (scaleBlk m c t)).trans ?_
    rw [scratchA_eq c (grid0.coords t) (ms0_0 t) (hs0_0 t) (ms0_1 t) (hs0_1 t) (ms0_2 t) (hs0_2 t) (ms0_3 t) (hs0_3 t) scM0_0 (Memref.isWhole_whole _) ((hcond0_0 t).mpr h0) (tokenBlk m c t) (codeBlk m c t) (scaleBlk m c t), blockWeight_blk]
  · rw [outsAt0_B m c t h0]
    dsimp only
    refine (outB_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (tokenBlk m c t) (codeBlk m c t) (scaleBlk m c t) _).trans ?_
    rw [scratch_after m c (t.val - 1)]
    exact congrArg (fun j => k0_pay2 (tokenBlk m c t) (weightRows (codes m c) (scales m c) j))
      (Fin.ext (by show (t.val - 1) / 32 = t.val / 32; omega))

/-- WHAT POINT `t` WRITES BACK is block `t` of the specified output of the argument arrays. -/
theorem flushed_eq (c : Dev nD) (t : Fin cfg0.N) :
    (dats m 0 c).flushed 3 t
      = ((cfg0.win 3).blk t).view.read (Elt Ideal) (out (tokens m c) (codes m c) (scales m c)) := by
  rw [Cert.KernelIdeal.Value.flushed3, out_after]
  obtain ⟨-, -, -, -, -, -, e0, e1⟩ := index_facts t
  have hN : t.val < 256 := point_lt t
  funext j
  obtain ⟨a, b, rfl⟩ : ∃ (a : Fin 256) (b : Fin 512), j = ix2 a b := ⟨j 0, j 1, eq_ix2 j⟩
  show k0_pay2 (tokenBlk m c t) (weightRows (codes m c) (scales m c) (rowBlockOf t)) (ix2 a b)
    = out (tokens m c) (codes m c) (scales m c) (((cfg0.win 3).blk t).view.emb (ix2 a b))
  have hemb : ((cfg0.win 3).blk t).view.emb (ix2 a b)
      = ix2 (⟨256 * (t.val % 32) + a.val, by have := a.isLt; omega⟩ : Fin 8192)
          (⟨512 * (t.val / 32) + b.val, by have := b.isLt; omega⟩ : Fin 4096) := by
    funext d
    apply Fin.ext
    match d with
    | ⟨0, _⟩ => show win0_3.index t (0 : Fin 2) * 256 + 1 * a.val = 256 * (t.val % 32) + a.val; rw [e0]; omega
    | ⟨1, _⟩ => show win0_3.index t (1 : Fin 2) * 512 + 1 * b.val = 512 * (t.val / 32) + b.val; rw [e1]; omega
  rw [hemb, product_apply, out_apply]
  refine Finset.sum_congr rfl fun k _ => ?_
  rw [tokenBlk_apply, weightRows_apply]
  rfl

/-- An index of the result is in point `t`'s block iff each coordinate is in the block's range on its axis. -/
theorem mem_outBlock (t : Fin cfg0.N) (i : S8192x4096.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v0).slice (win0_3.rect t)).set ↔ _
  rw [View.set_slice_whole, Rect.mem_set_unit]
  exact Iff.rfl

/-- Every entry of the result lies in the block of the point with coordinates (column / 512, row / 256). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  have hlt : 32 * ((i 1).val / 512) + (i 0).val / 256 < cfg0.N := by rw [hN]; omega
  obtain ⟨-, -, -, -, -, -, e0, e1⟩ := index_facts ⟨32 * ((i 1).val / 512) + (i 0).val / 256, hlt⟩
  refine ⟨⟨32 * ((i 1).val / 512) + (i 0).val / 256, hlt⟩, flush0_3 _, ?_⟩
  rw [mem_outBlock]
  intro a
  match a with
  | ⟨0, _⟩ =>
    show win0_3.index ⟨32 * ((i 1).val / 512) + (i 0).val / 256, hlt⟩ (0 : Fin 2) * 256 ≤ (i 0).val
      ∧ (i 0).val < win0_3.index ⟨32 * ((i 1).val / 512) + (i 0).val / 256, hlt⟩ (0 : Fin 2) * 256 + 256
    rw [e0]
    show (32 * ((i 1).val / 512) + (i 0).val / 256) % 32 * 256 ≤ (i 0).val
      ∧ (i 0).val < (32 * ((i 1).val / 512) + (i 0).val / 256) % 32 * 256 + 256
    omega
  | ⟨1, _⟩ =>
    show win0_3.index ⟨32 * ((i 1).val / 512) + (i 0).val / 256, hlt⟩ (1 : Fin 2) * 512 ≤ (i 1).val
      ∧ (i 1).val < win0_3.index ⟨32 * ((i 1).val / 512) + (i 0).val / 256, hlt⟩ (1 : Fin 2) * 512 + 512
    rw [e1]
    show (32 * ((i 1).val / 512) + (i 0).val / 256) / 32 * 512 ≤ (i 1).val
      ∧ (i 1).val < (32 * ((i 1).val / 512) + (i 0).val / 256) / 32 * 512 + 512
    omega

/-- THE RESULT ARRAY after the run is the specified output of the argument arrays. -/
theorem final (c : Dev nD) :
    (dats m 0 c).arrAt 3 cfg0.N = out (tokens m c) (codes m c) (scales m c) :=
  (dats m 0 c).arrAt_eq_of_cover 3 (out (tokens m c) (codes m c) (scales m c)) (fun t _ => flushed_eq m c t) covered

/-- The kernel's run, read: the result at the specified output of the arguments, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.lean ====
/-
  A 4-bit quantized linear layer: `out[t, o] = sum over k of x[t, k] * w[o, k]` with `w[o, k] = (float(q[o, k]) - 8) * s[o, k / 128]`,
  for 8192 token rows, 4096 output rows, 4096 input columns in 32 groups of 128.

  The kernel walks an 8 × 32 grid (block of 512 output rows, then block of 256 token rows). At the first token block of each
  output-row block it dequantizes the 512 × 4096 weight block into a scratch, 128 columns at a time, and keeps it for the
  following 31 token blocks; at every point it multiplies the 256 × 4096 token block by the scratch. The reference dequantizes
  the whole matrix through a [4096, 32, 128] view and contracts once.

  On the extended reals both are the same sum of the same products (Proof/Dequant.lean states it): the narrowings to bf16 are
  the identity, the two products are grouped alike on both sides, and a sum does not depend on the order or the tiling in
  which its terms are met. The inputs' finiteness is never used. The kernel's side is Proof/KernelValue.lean (over
  Proof/ScratchTiles.lean, Proof/CasePieces.lean, Proof/Contraction.lean, Proof/Blocks.lean), the reference's
  Proof/RefSide.lean; the idealization rewrote nothing, so `preserves` is trivial; the three frames are the generated ones.
-/
import proofs.«116766_j90718299226265_1_alg».proof.Defs
import proofs.«116766_j90718299226265_1_alg».proof.Proof.Gen.Kernel
import proofs.«116766_j90718299226265_1_alg».proof.Proof.Gen.Kernel.Skeleton
import proofs.«116766_j90718299226265_1_alg».proof.Proof.Gen.Kernel.Launch
import proofs.«116766_j90718299226265_1_alg».proof.Proof.Gen.Kernel.Points
import proofs.«116766_j90718299226265_1_alg».proof.Proof.Gen.Kernel.Frame
import proofs.«116766_j90718299226265_1_alg».proof.Proof.Gen.KernelIdeal
import proofs.«116766_j90718299226265_1_alg».proof.Proof.Gen.KernelIdeal.Skeleton
import proofs.«116766_j90718299226265_1_alg».proof.Proof.Gen.KernelIdeal.Launch
import proofs.«116766_j90718299226265_1_alg».proof.Proof.Gen.KernelIdeal.Points
import proofs.«116766_j90718299226265_1_alg».proof.Proof.Gen.KernelIdeal.Frame
import proofs.«116766_j90718299226265_1_alg».proof.Proof.Gen.ReferenceIdeal
import proofs.«116766_j90718299226265_1_alg».proof.Proof.Gen.Pre_finite_inputs
import proofs.«116766_j90718299226265_1_alg».proof.Proof.Gen.KernelIdeal.Value
import proofs.«116766_j90718299226265_1_alg».proof.Proof.Gen.ReferenceIdeal.Run
import proofs.«116766_j90718299226265_1_alg».proof.Proof.Gen.ReferenceIdeal.Read
import proofs.«116766_j90718299226265_1_alg».proof.Proof.Dequant
import proofs.«116766_j90718299226265_1_alg».proof.Proof.RefSide
import proofs.«116766_j90718299226265_1_alg».proof.Proof.KernelValue
import Idealize.ShloMosaic.Adequacy
import Idealize.ShloMosaic.Init

noncomputable section

namespace Cert.Proof

open Idealize.ShloMosaic Idealize.ShloMosaic.TcCoe Idealize.SL.Sem Cert.Dequant

/-- The word-level kernel terminates without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is ten host operations in a row: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specified output of the (agreeing) argument arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
